-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩
abbrev S850000x256 : Shape := ⟨2, ![850000, 256]⟩
abbrev S1x128 : Shape := ⟨2, ![1, 128]⟩
abbrev S850000x128 : Shape := ⟨2, ![850000, 128]⟩

abbrev nBuf : Space → Nat
  | .hbm => 111
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .f32⟩
  | .hbm, ⟨51, _⟩ => ⟨S256, .f32⟩
  | .hbm, ⟨52, _⟩ => ⟨S50000x128, .bf16⟩
  | .hbm, ⟨53, _⟩ => ⟨S128x256, .bf16⟩
  | .hbm, ⟨54, _⟩ => ⟨S50000x256, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x256, .f32⟩
  | .hbm, ⟨64, _⟩ => ⟨S850000x1, .f32⟩
  | .hbm, ⟨65, _⟩ => ⟨S850000x256, .f32⟩
  | .hbm, ⟨66, _⟩ => ⟨S850000x256, .f32⟩
  | .hbm, ⟨67, _⟩ => ⟨S_, .f32⟩
  | .hbm, ⟨68, _⟩ => ⟨S50000x256, .f32⟩
  | .hbm, ⟨69, _⟩ => ⟨S850000x1, .i32⟩
  | .hbm, ⟨70, _⟩ => ⟨S50000x256, .f32⟩
  | .hbm, ⟨71, _⟩ => ⟨S1x256, .f32⟩
  | .hbm, ⟨72, _⟩ => ⟨S50000x256, .f32⟩
  | .hbm, ⟨73, _⟩ => ⟨S50000x256, .f32⟩
  | .hbm, ⟨74, _⟩ => ⟨S_, .f32⟩
  | .hbm, ⟨75, _⟩ => ⟨S50000x256, .f32⟩
  | .hbm, ⟨76, _⟩ => ⟨S50000x256, .f32⟩
  | .hbm, ⟨77, _⟩ => ⟨S_, .f32⟩
  | .hbm, ⟨78, _⟩ => ⟨S128, .f32⟩
  | .hbm, ⟨79, _⟩ => ⟨S50000x256, .bf16⟩
  | .hbm, ⟨80, _⟩ => ⟨S256x128, .bf16⟩
  | .hbm, ⟨81, _⟩ => ⟨S50000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x128, .f32⟩
  | .hbm, ⟨91, _⟩ => ⟨S850000x1, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S128x256, .f32⟩
  | .hbm, ⟨105, _⟩ => ⟨S256, .f32⟩
  | .hbm, ⟨106, _⟩ => ⟨S50000x128, .bf16⟩
  | .hbm, ⟨107, _⟩ => ⟨S128x256, .bf16⟩
  | .hbm, ⟨108, _⟩ => ⟨S50000x256, .f32⟩
  | .hbm, ⟨109, _⟩ => ⟨S50000x128, .f32⟩
  | .hbm, ⟨110, _⟩ => ⟨S50000x128, .f32⟩
  | .local _ .vmem, ⟨0, _⟩ => ⟨S5000x128, .bf16⟩
  | .local _ .vmem, ⟨1, _⟩ => ⟨S5000x128, .bf16⟩
  | .local _ .vmem, ⟨2, _⟩ => ⟨S128x256, .bf16⟩
  | .local _ .vmem, ⟨3, _⟩ => ⟨S256, .f32⟩
  | .local _ .vmem, ⟨4, _⟩ => ⟨S5000x256, .f32⟩
  | .local _ .vmem, ⟨5, _⟩ => ⟨S5000x256, .f32⟩
  | .local _ .vmem, ⟨6, _⟩ => ⟨S5000x256, .bf16⟩
  | .local _ .vmem, ⟨7, _⟩ => ⟨S5000x256, .bf16⟩
  | .local _ .vmem, ⟨8, _⟩ => ⟨S256x128, .bf16⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .bf16⟩
  | .local _ .vmem, ⟨13, _⟩ => ⟨S5000x128, .bf16⟩
  | .local _ .vmem, ⟨14, _⟩ => ⟨S128x256, .bf16⟩
  | .local _ .vmem, ⟨15, _⟩ => ⟨S256, .f32⟩
  | .local _ .vmem, ⟨16, _⟩ => ⟨S5000x256, .f32⟩
  | .local _ .vmem, ⟨17, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call2_cst : Ref sig .tc := ⟨.hbm, 101, rfl⟩
abbrev main_call2_v0 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S256 : S_.BroadcastsInDim S256 (![] : Fin 0 → Fin S256.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S128 : S_.BroadcastsInDim S128 (![] : Fin 0 → Fin S128.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S128x128_S128x128_S128x256_d1 : Shape.Concatenates [S128x128, S128x128] S128x256 1
  concatenates_S128_S128_S256_d0 : Shape.Concatenates [S128, S128] S256 0
  slices_S50000x256_S50000x128_0_0 : S50000x256.Slices ![0, 0] S50000x128
  slices_S50000x256_S50000x128_0_128 : S50000x256.Slices ![0, 128] S50000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .bf16 = 32 ∨ (Rect.block (s := S128x256) S128x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v31) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v74) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x256, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x256, .f32⟩
  | .hbm, ⟨60, _⟩ => ⟨S850000x1, .f32⟩
  | .hbm, ⟨61, _⟩ => ⟨S850000x256, .f32⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x1, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BlockAffine.lean ====
/-
  One grid point of the dense layer, read element by element over the extended reals.

  The body multiplies its block of rows by the whole weight matrix into a zero accumulator and adds the bias row to
  every row of the product. Element (p, q) of what it stores is therefore

      (sum over k of x(p, k) * w(k, q)) + b(q),

  the contraction running over the one contracted axis. Here: 128 contracted columns into 256 outputs.
-/
import proofs.«105779_j87333864997319_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.GraphEncoder

open Idealize.ShloMosaic Idealize.ShloMosaic.ValueIdx Cert.KernelIdeal Cert.KernelIdeal.Gen

/-! ## 128 contracted columns, 256 outputs -/

/-- Row coordinate of the left factor: the output's row. -/
theorem lhsA_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- Column coordinate of the left factor: the contraction index. -/
theorem lhsA_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
/-- Row coordinate of the right factor: the contraction index. -/
theorem rhsA_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
/-- Column coordinate of the right factor: the output's column. -/
theorem rhsA_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The block product into a zero accumulator, at (p, q): the sum over the 128 contracted columns. -/
theorem matmulA_apply (x : FVec Ideal S5000x128 .bf16) (w : FVec Ideal S128x256 .bf16) (p : Fin 5000) (q : Fin 256) :
    matmul dot_S5000x128_S128x256_S5000x256_1_0_0_1_n_n none x w (constant S5000x256 .f32 0x00000000#32) (ix2 p q)
      = ∑ k : Fin 128, x (ix2 p k) * w (ix2 k q) := by
  show FloatOps.matmul dot_S5000x128_S128x256_S5000x256_1_0_0_1_n_n none x w (constant S5000x256 .f32 0x00000000#32) (ix2 p q) = _
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- The bias row laid under every row of the block, at (p, q): the bias at q. -/
theorem biasA_apply (b : FVec Ideal S256 .f32) (p : Fin 5000) (q : Fin 256) :
    broadcastTo S5000x256 (shapeCast S1x256 (shapeCast S256 b shapeCasts_S256_S256) shapeCasts_S256_S1x256) broadcasts_S1x256_S5000x256 (ix2 p q)
      = b (ix1 q) := by
  rw [shapeCast_self]
  exact (broadcastTo_1b_ab_apply _ broadcasts_S1x256_S5000x256 p q).trans (shapeCast_a_1a_apply b shapeCasts_S256_S1x256 0 q)

/-- What the body of the first and third layers stores, at (p, q). -/
theorem payA_apply (x : Vec Ideal S5000x128 .bf16) (w : Vec Ideal S128x256 .bf16) (b : Vec Ideal S256 .f32) (p : Fin 5000) (q : Fin 256) :
    k0_pay1 (F := Ideal) x w b (ix2 p q) = (∑ k : Fin 128, x (ix2 p k) * w (ix2 k q)) + b (ix1 q) := by
  unfold k0_pay1
  show FloatOps.addf _ _ = _
  rw [shapeCast_self, shapeCast_self]
  exact congrArg₂ (· + ·) (matmulA_apply x w p q) (biasA_apply b p q)

end Cert.GraphEncoder

end
-- ==== Proof.Affine.lean ====
/-
  The dense layer as one function of whole arrays, over the extended reals: entry (r, q) of the result is the
  row r of x against the column q of w, plus the bias at q,

      dense x w b (r, q) = (sum over k of x(r, k) * w(k, q)) + b(q).

  `denseA`: 128 contracted columns into 256 outputs (first layer; third layer on the two heads' weights side by
  side). `denseB`: 256 contracted columns into 128 outputs (second layer). 50000 rows in both.
-/
import proofs.«105779_j87333864997319_1_alg».proof.KernelIdeal
import Idealize.ShloMosaic.Lib.ValueIdx
import Idealize.ShloMosaic.PureOps.Ideal

noncomputable section

namespace Cert.GraphEncoder

open Idealize.ShloMosaic Idealize.ShloMosaic.ValueIdx Cert.KernelIdeal

/-- 50000 rows of 128 columns against a 128 by 256 matrix, plus a bias of 256. -/
def denseA (x : Vec Ideal S50000x128 .bf16) (w : Vec Ideal S128x256 .bf16) (b : Vec Ideal S256 .f32) : Vec Ideal S50000x256 .f32 :=
  fun i => (∑ k : Fin 128, x (ix2 (⟨(i 0).val, (i 0).isLt⟩ : Fin 50000) k) * w (ix2 k (⟨(i 1).val, (i 1).isLt⟩ : Fin 256)))
    + b (ix1 (⟨(i 1).val, (i 1).isLt⟩ : Fin 256))

/-- 50000 rows of 256 columns against a 256 by 128 matrix, plus a bias of 128. -/
def denseB (x : Vec Ideal S50000x256 .bf16) (w : Vec Ideal S256x128 .bf16) (b : Vec Ideal S128 .f32) : Vec Ideal S50000x128 .f32 :=
  fun i => (∑ k : Fin 256, x (ix2 (⟨(i 0).val, (i 0).isLt⟩ : Fin 50000) k) * w (ix2 k (⟨(i 1).val, (i 1).isLt⟩ : Fin 128)))
    + b (ix1 (⟨(i 1).val, (i 1).isLt⟩ : Fin 128))

theorem denseA_apply (x : Vec Ideal S50000x128 .bf16) (w : Vec Ideal S128x256 .bf16) (b : Vec Ideal S256 .f32) (r : Fin 50000) (q : Fin 256) :
    denseA x w b (ix2 r q) = (∑ k : Fin 128, x (ix2 r k) * w (ix2 k q)) + b (ix1 q) := rfl

theorem denseB_apply (x : Vec Ideal S50000x256 .bf16) (w : Vec Ideal S256x128 .bf16) (b : Vec Ideal S128 .f32) (r : Fin 50000) (q : Fin 128) :
    denseB x w b (ix2 r q) = (∑ k : Fin 256, x (ix2 r k) * w (ix2 k q)) + b (ix1 q) := rfl

end Cert.GraphEncoder

end
-- ==== Proof.Region0.lean ====
/-
  First layer, from blocks to the array. The grid has ten points; point t takes rows 5000 t … 5000 t + 4999 of x,
  the whole weight matrix and the whole bias, and writes rows 5000 t … 5000 t + 4999 of the result. Row p of
  block t is row 5000 t + p of the array, so what point t writes back is block t of `denseA` of the three arrays
  as the region finds them; the ten blocks tile the 50000 rows, so the result array ends as `denseA` of them.
-/
import proofs.«105779_j87333864997319_1_alg».proof.Proof.Gen.KernelIdeal.Frame
import proofs.«105779_j87333864997319_1_alg».proof.Proof.BlockAffine
import proofs.«105779_j87333864997319_1_alg».proof.Proof.Affine

noncomputable section

set_option maxRecDepth 16384

namespace Cert.GraphEncoder

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

/-- The block indices of the four windows at point t: x and the result move with t along the rows; the weights and the
    bias stay. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block t of the dense layer of the arrays the region finds. -/
theorem flushed0 (c : Dev nD) (t : Fin cfg0.N) :
    (dat0 V c).flushed 3 t = ((cfg0.win 3).blk t).view.read (Elt Ideal) (denseA (V c main_v31) (V c main_v32) (V c main_v30)) := by
  show (cfg0.win 3).cut (grid0.coords t) ((dat0 V c).after 3 t) = _
  rw [after0_3]
  unfold out0_3
  rw [View.canon_unit_zero zero2]
  simp only [View.ld_unit_zero (S := S5000x128) zero2, View.ld_unit_zero (S := S128x256) zero2, View.ld_unit_zero (S := S256) zero1]
  funext j
  obtain ⟨p, q, rfl⟩ : ∃ (p : Fin 5000) (q : Fin 256), j = ix2 p q := ⟨j 0, j 1, eq_ix2 j⟩
  show k0_pay1 (F := Ideal) (iblk0 V c 0 t) (iblk0 V c 1 t) (iblk0 V c 2 t) (ix2 p q)
      = denseA (V c main_v31) (V c main_v32) (V c main_v30) (((cfg0.win 3).blk t).view.emb (ix2 p q))
  refine (payA_apply (iblk0 V c 0 t) (iblk0 V c 1 t) (iblk0 V c 2 t) p q).trans ?_
  obtain ⟨e00, e01, e10, e11, e20, e30, e31⟩ := blockIdx0 t
  -- row p of block t is row 5000 t + p of the array; the columns are the array's
  have hrow : (((cfg0.win 3).blk t).view.emb (ix2 p q) 0).val = t.val * 5000 + p.val := by
    show win0_3.index t (0 : Fin 2) * 5000 + 1 * p.val = _
    omega
  have hcol : (((cfg0.win 3).blk t).view.emb (ix2 p q) 1).val = q.val := by
    show win0_3.index t (1 : Fin 2) * 256 + 1 * q.val = _
    omega
  unfold denseA
  refine congrArg₂ (· + ·) (Finset.sum_congr rfl fun k _ => congrArg₂ (· * ·) ?_ ?_) ?_
  · show V c main_v31 (((cfg0.win 0).blk t).view.emb (ix2 p k)) = _
    refine congrArg (V c main_v31) (funext fun a => Fin.ext ?_)
    match a with
    | ⟨0, _⟩ =>
      show win0_0.index t (0 : Fin 2) * 5000 + 1 * p.val = (((cfg0.win 3).blk t).view.emb (ix2 p q) 0).val
      omega
    | ⟨1, _⟩ =>
      show win0_0.index t (1 : Fin 2) * 128 + 1 * k.val = k.val
      omega
  · show V c main_v32 (((cfg0.win 1).blk t).view.emb (ix2 k q)) = _
    refine congrArg (V c main_v32) (funext fun a => Fin.ext ?_)
    match a with
    | ⟨0, _⟩ =>
      show win0_1.index t (0 : Fin 2) * 128 + 1 * k.val = k.val
      omega
    | ⟨1, _⟩ =>
      show win0_1.index t (1 : Fin 2) * 256 + 1 * q.val = (((cfg0.win 3).blk t).view.emb (ix2 p q) 1).val
      omega
  · show V c main_v30 (((cfg0.win 2).blk t).view.emb (ix1 q)) = _
    refine congrArg (V c main_v30) (funext fun a => Fin.ext ?_)
    match a with
    | ⟨0, _⟩ =>
      show win0_2.index t (0 : Fin 1) * 256 + 1 * q.val = (((cfg0.win 3).blk t).view.emb (ix2 p q) 1).val
      omega

/-- An index of the result array lies in point t's block iff its row is among the block's 5000 rows. -/
theorem mem_block0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v33).slice (win0_3.rect t)).set ↔ _
  rw [View.set_slice_whole, Rect.mem_set_unit]
  exact Iff.rfl

/-- Every row lies in the block of the point (row / 5000): the ten blocks tile the array. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 5000, by rw [show cfg0.N = 10 from N_0]; omega⟩
  obtain ⟨-, -, -, -, -, e30, e31⟩ := blockIdx0 t
  have ht : t.val = (i 0).val / 5000 := rfl
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- THE ARRAY OF THIS LAYER: after the ten points the result array is the dense layer of the three arrays the region
    finds. -/
theorem array0 (c : Dev nD) :
    (dat0 V c).arrAt 3 cfg0.N = denseA (V c main_v31) (V c main_v32) (V c main_v30) :=
  (dat0 V c).arrAt_eq_of_cover 3 (denseA (V c main_v31) (V c main_v32) (V c main_v30)) (fun t _ => flushed0 V c t) cover0

end Cert.GraphEncoder

end
-- ==== Proof.BlockAffineB.lean ====
/-
  One grid point of the dense layer, read element by element over the extended reals.

  The body multiplies its block of rows by the whole weight matrix into a zero accumulator and adds the bias row to
  every row of the product. Element (p, q) of what it stores is therefore

      (sum over k of x(p, k) * w(k, q)) + b(q),

  the contraction running over the one contracted axis. Here: 256 contracted columns into 128 outputs.
-/
import proofs.«105779_j87333864997319_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.GraphEncoder

open Idealize.ShloMosaic Idealize.ShloMosaic.ValueIdx Cert.KernelIdeal Cert.KernelIdeal.Gen

/-! ## 256 contracted columns, 128 outputs -/

/-- Row coordinate of the left factor: the output's row. -/
theorem lhsB_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- Column coordinate of the left factor: the contraction index. -/
theorem lhsB_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- Row coordinate of the right factor: the contraction index. -/
theorem rhsB_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- Column coordinate of the right factor: the output's column. -/
theorem rhsB_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block product into a zero accumulator, at (p, q): the sum over the 256 contracted columns. -/
theorem matmulB_apply (x : FVec Ideal S5000x256 .bf16) (w : FVec Ideal S256x128 .bf16) (p : Fin 5000) (q : Fin 128) :
    matmul dot_S5000x256_S256x128_S5000x128_1_0_0_1_n_n none x w (constant S5000x128 .f32 0x00000000#32) (ix2 p q)
      = ∑ k : Fin 256, x (ix2 p k) * w (ix2 k q) := by
  show FloatOps.matmul dot_S5000x256_S256x128_S5000x128_1_0_0_1_n_n none x w (constant S5000x128 .f32 0x00000000#32) (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-- The bias row laid under every row of the block, at (p, q): the bias at q. -/
theorem biasB_apply (b : FVec Ideal S128 .f32) (p : Fin 5000) (q : Fin 128) :
    broadcastTo S5000x128 (shapeCast S1x128 (shapeCast S128 b shapeCasts_S128_S128) shapeCasts_S128_S1x128) broadcasts_S1x128_S5000x128 (ix2 p q)
      = b (ix1 q) := by
  rw [shapeCast_self]
  exact (broadcastTo_1b_ab_apply _ broadcasts_S1x128_S5000x128 p q).trans (shapeCast_a_1a_apply b shapeCasts_S128_S1x128 0 q)

/-- What the body of the second layer stores, at (p, q). -/
theorem payB_apply (x : Vec Ideal S5000x256 .bf16) (w : Vec Ideal S256x128 .bf16) (b : Vec Ideal S128 .f32) (p : Fin 5000) (q : Fin 128) :
    k1_pay1 (F := Ideal) x w b (ix2 p q) = (∑ k : Fin 256, x (ix2 p k) * w (ix2 k q)) + b (ix1 q) := by
  unfold k1_pay1
  show FloatOps.addf _ _ = _
  rw [shapeCast_self, shapeCast_self]
  exact congrArg₂ (· + ·) (matmulB_apply x w p q) (biasB_apply b p q)

end Cert.GraphEncoder

end
-- ==== Proof.Region1.lean ====
/-
  Second layer, from blocks to the array. The grid has ten points; point t takes rows 5000 t … 5000 t + 4999 of x,
  the whole weight matrix and the whole bias, and writes rows 5000 t … 5000 t + 4999 of the result. Row p of
  block t is row 5000 t + p of the array, so what point t writes back is block t of `denseB` of the three arrays
  as the region finds them; the ten blocks tile the 50000 rows, so the result array ends as `denseB` of them.
-/
import proofs.«105779_j87333864997319_1_alg».proof.Proof.Gen.KernelIdeal.Frame
import proofs.«105779_j87333864997319_1_alg».proof.Proof.BlockAffineB
import proofs.«105779_j87333864997319_1_alg».proof.Proof.Affine

noncomputable section

set_option maxRecDepth 16384

namespace Cert.GraphEncoder

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

/-- The block indices of the four windows at point t: x and the result move with t along the rows; the weights and the
    bias stay. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is block t of the dense layer of the arrays the region finds. -/
theorem flushed1 (c : Dev nD) (t : Fin cfg1.N) :
    (dat1 V c).flushed 3 t = ((cfg1.win 3).blk t).view.read (Elt Ideal) (denseB (V c main_v52) (V c main_v53) (V c main_v51)) := by
  show (cfg1.win 3).cut (grid1.coords t) ((dat1 V c).after 3 t) = _
  rw [after1_3]
  unfold out1_3
  rw [View.canon_unit_zero zero2]
  simp only [View.ld_unit_zero (S := S5000x256) zero2, View.ld_unit_zero (S := S256x128) zero2, View.ld_unit_zero (S := S128) zero1]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
      = denseB (V c main_v52) (V c main_v53) (V c main_v51) (((cfg1.win 3).blk t).view.emb (ix2 p q))
  refine (payB_apply (iblk1 V c 0 t) (iblk1 V c 1 t) (iblk1 V c 2 t) p q).trans ?_
  obtain ⟨e00, e01, e10, e11, e20, e30, e31⟩ := blockIdx1 t
  -- row p of block t is row 5000 t + p of the array; the columns are the array's
  have hrow : (((cfg1.win 3).blk t).view.emb (ix2 p q) 0).val = t.val * 5000 + p.val := by
    show win1_3.index t (0 : Fin 2) * 5000 + 1 * p.val = _
    omega
  have hcol : (((cfg1.win 3).blk t).view.emb (ix2 p q) 1).val = q.val := by
    show win1_3.index t (1 : Fin 2) * 128 + 1 * q.val = _
    omega
  unfold denseB
  refine congrArg₂ (· + ·) (Finset.sum_congr rfl fun k _ => congrArg₂ (· * ·) ?_ ?_) ?_
  · show V c main_v52 (((cfg1.win 0).blk t).view.emb (ix2 p k)) = _
    refine congrArg (V c main_v52) (funext fun a => Fin.ext ?_)
    match a with
    | ⟨0, _⟩ =>
      show win1_0.index t (0 : Fin 2) * 5000 + 1 * p.val = (((cfg1.win 3).blk t).view.emb (ix2 p q) 0).val
      omega
    | ⟨1, _⟩ =>
      show win1_0.index t (1 : Fin 2) * 256 + 1 * k.val = k.val
      omega
  · show V c main_v53 (((cfg1.win 1).blk t).view.emb (ix2 k q)) = _
    refine congrArg (V c main_v53) (funext fun a => Fin.ext ?_)
    match a with
    | ⟨0, _⟩ =>
      show win1_1.index t (0 : Fin 2) * 256 + 1 * k.val = k.val
      omega
    | ⟨1, _⟩ =>
      show win1_1.index t (1 : Fin 2) * 128 + 1 * q.val = (((cfg1.win 3).blk t).view.emb (ix2 p q) 1).val
      omega
  · show V c main_v51 (((cfg1.win 2).blk t).view.emb (ix1 q)) = _
    refine congrArg (V c main_v51) (funext fun a => Fin.ext ?_)
    match a with
    | ⟨0, _⟩ =>
      show win1_2.index t (0 : Fin 1) * 128 + 1 * q.val = (((cfg1.win 3).blk t).view.emb (ix2 p q) 1).val
      omega

/-- An index of the result array lies in point t's block iff its row is among the block's 5000 rows. -/
theorem mem_block1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v54).slice (win1_3.rect t)).set ↔ _
  rw [View.set_slice_whole, Rect.mem_set_unit]
  exact Iff.rfl

/-- Every row lies in the block of the point (row / 5000): the ten blocks tile the array. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, -, e30, e31⟩ := blockIdx1 t
  have ht : t.val = (i 0).val / 5000 := rfl
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- THE ARRAY OF THIS LAYER: after the ten points the result array is the dense layer of the three arrays the region
    finds. -/
theorem array1 (c : Dev nD) :
    (dat1 V c).arrAt 3 cfg1.N = denseB (V c main_v52) (V c main_v53) (V c main_v51) :=
  (dat1 V c).arrAt_eq_of_cover 3 (denseB (V c main_v52) (V c main_v53) (V c main_v51)) (fun t _ => flushed1 V c t) cover1

end Cert.GraphEncoder

end
-- ==== Proof.Region2.lean ====
/-
  Third layer (the two heads side by side), from blocks to the array. The grid has ten points; point t takes rows 5000 t … 5000 t + 4999 of x,
  the whole weight matrix and the whole bias, and writes rows 5000 t … 5000 t + 4999 of the result. Row p of
  block t is row 5000 t + p of the array, so what point t writes back is block t of `denseA` of the three arrays
  as the region finds them; the ten blocks tile the 50000 rows, so the result array ends as `denseA` of them.
-/
import proofs.«105779_j87333864997319_1_alg».proof.Proof.Gen.KernelIdeal.Frame
import proofs.«105779_j87333864997319_1_alg».proof.Proof.BlockAffine
import proofs.«105779_j87333864997319_1_alg».proof.Proof.Affine

noncomputable section

set_option maxRecDepth 16384

namespace Cert.GraphEncoder

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

/-- The block indices of the four windows at point t: x and the result move with t along the rows; the weights and the
    bias stay. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- What point t writes back is block t of the dense layer of the arrays the region finds. -/
theorem flushed2 (c : Dev nD) (t : Fin cfg2.N) :
    (dat2 V c).flushed 3 t = ((cfg2.win 3).blk t).view.read (Elt Ideal) (denseA (V c main_v74) (V c main_v75) (V c main_v73)) := by
  show (cfg2.win 3).cut (grid2.coords t) ((dat2 V c).after 3 t) = _
  rw [after2_3]
  unfold out2_3
  rw [View.canon_unit_zero zero2]
  simp only [View.ld_unit_zero (S := S5000x128) zero2, View.ld_unit_zero (S := S128x256) zero2, View.ld_unit_zero (S := S256) zero1]
  funext j
  obtain ⟨p, q, rfl⟩ : ∃ (p : Fin 5000) (q : Fin 256), j = ix2 p q := ⟨j 0, j 1, eq_ix2 j⟩
  show k2_pay1 (F := Ideal) (iblk2 V c 0 t) (iblk2 V c 1 t) (iblk2 V c 2 t) (ix2 p q)
      = denseA (V c main_v74) (V c main_v75) (V c main_v73) (((cfg2.win 3).blk t).view.emb (ix2 p q))
  refine (payA_apply (iblk2 V c 0 t) (iblk2 V c 1 t) (iblk2 V c 2 t) p q).trans ?_
  obtain ⟨e00, e01, e10, e11, e20, e30, e31⟩ := blockIdx2 t
  -- row p of block t is row 5000 t + p of the array; the columns are the array's
  have hrow : (((cfg2.win 3).blk t).view.emb (ix2 p q) 0).val = t.val * 5000 + p.val := by
    show win2_3.index t (0 : Fin 2) * 5000 + 1 * p.val = _
    omega
  have hcol : (((cfg2.win 3).blk t).view.emb (ix2 p q) 1).val = q.val := by
    show win2_3.index t (1 : Fin 2) * 256 + 1 * q.val = _
    omega
  unfold denseA
  refine congrArg₂ (· + ·) (Finset.sum_congr rfl fun k _ => congrArg₂ (· * ·) ?_ ?_) ?_
  · show V c main_v74 (((cfg2.win 0).blk t).view.emb (ix2 p k)) = _
    refine congrArg (V c main_v74) (funext fun a => Fin.ext ?_)
    match a with
    | ⟨0, _⟩ =>
      show win2_0.index t (0 : Fin 2) * 5000 + 1 * p.val = (((cfg2.win 3).blk t).view.emb (ix2 p q) 0).val
      omega
    | ⟨1, _⟩ =>
      show win2_0.index t (1 : Fin 2) * 128 + 1 * k.val = k.val
      omega
  · show V c main_v75 (((cfg2.win 1).blk t).view.emb (ix2 k q)) = _
    refine congrArg (V c main_v75) (funext fun a => Fin.ext ?_)
    match a with
    | ⟨0, _⟩ =>
      show win2_1.index t (0 : Fin 2) * 128 + 1 * k.val = k.val
      omega
    | ⟨1, _⟩ =>
      show win2_1.index t (1 : Fin 2) * 256 + 1 * q.val = (((cfg2.win 3).blk t).view.emb (ix2 p q) 1).val
      omega
  · show V c main_v73 (((cfg2.win 2).blk t).view.emb (ix1 q)) = _
    refine congrArg (V c main_v73) (funext fun a => Fin.ext ?_)
    match a with
    | ⟨0, _⟩ =>
      show win2_2.index t (0 : Fin 1) * 256 + 1 * q.val = (((cfg2.win 3).blk t).view.emb (ix2 p q) 1).val
      omega

/-- An index of the result array lies in point t's block iff its row is among the block's 5000 rows. -/
theorem mem_block2 (t : Fin cfg2.N) (i : S50000x256.Idx) :
    i ∈ ((cfg2.win 3).blk t).view.set ↔ ∀ a : Fin 2, win2_3.index t a * S5000x256.size a ≤ (i a).val ∧ (i a).val < win2_3.index t a * S5000x256.size a + S5000x256.size a := by
  show i ∈ ((View.whole main_v76).slice (win2_3.rect t)).set ↔ _
  rw [View.set_slice_whole, Rect.mem_set_unit]
  exact Iff.rfl

/-- Every row lies in the block of the point (row / 5000): the ten blocks tile the array. -/
theorem cover2 (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  let t : Fin cfg2.N := ⟨(i 0).val / 5000, by rw [show cfg2.N = 10 from N_2]; omega⟩
  obtain ⟨-, -, -, -, -, e30, e31⟩ := blockIdx2 t
  have ht : t.val = (i 0).val / 5000 := rfl
  refine ⟨t, flush2_3 t, ?_⟩
  rw [mem_block2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 256 ≤ (i 1).val ∧ (i 1).val < win2_3.index t (1 : Fin 2) * 256 + 256
    omega

/-- THE ARRAY OF THIS LAYER: after the ten points the result array is the dense layer of the three arrays the region
    finds. -/
theorem array2 (c : Dev nD) :
    (dat2 V c).arrAt 3 cfg2.N = denseA (V c main_v74) (V c main_v75) (V c main_v73) :=
  (dat2 V c).arrAt_eq_of_cover 3 (denseA (V c main_v74) (V c main_v75) (V c main_v73)) (fun t _ => flushed2 V c t) cover2

end Cert.GraphEncoder

end
-- ==== Proof.StagesA.lean ====
/-
  The graph normalisation, as the kernel's program computes it before its first dense layer, is the reference's.

  Both programs build, from the edge list alone, the source and target index vectors (the edges followed by one self
  loop per node), the degree of every node (a scatter of ones at the targets), its inverse square root where the
  degree is positive and zero elsewhere, and the weight of every edge (the product of the two end nodes' values).
  They do so by the same operations in the same order; the kernel's program then lays out the first layer's three
  operands: x and W1 with their format changed, and a zero bias.

  The second half of the file follows the values that later stretches read again (the two index vectors, the edge
  weights, the arguments) through the stretches and the dense layers that do not write them.
-/
import proofs.«105779_j87333864997319_1_alg».proof.Proof.Gen.KernelIdeal.Frame
import proofs.«105779_j87333864997319_1_alg».proof.Proof.RefRead

noncomputable section

set_option maxRecDepth 16384

namespace Cert.GraphEncoder

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A stretch of host operations none of which writes the buffer leaves it as it was. -/
local macro "unwritten" : tactic => `(tactic| (
  refine List.forall_iff_forall_mem.mp ?_
  simp only [hostOps0, hostOps0_1, hostOps0_2, hostOps1, hostOps1_1, hostOps1_2, hostOps2, hostOps2_1, hostOps2_2, hostOps3,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Before the first dense layer -/

open Cert.ReferenceIdeal.ReadP in
/-- After the first stretch: the source indices. -/
theorem src1 (c : Dev nD) :
    W1 m ρ c (Proc.devRef .tc main_v3) = val_main_v3 (F := F) (m ((c : Thread nD τ).loc main_arg1)) := by
  show StableHlo.after hostOps0 (W0 m ρ c) (Proc.devRef .tc main_v3) = _
  dsimp only [hostOps0]
  after_results
  rfl

open Cert.ReferenceIdeal.ReadP in
/-- After the first stretch: the target indices. -/
theorem dst1 (c : Dev nD) :
    W1 m ρ c (Proc.devRef .tc main_v6) = val_main_v6 (F := F) (m ((c : Thread nD τ).loc main_arg1)) := by
  show StableHlo.after hostOps0 (W0 m ρ c) (Proc.devRef .tc main_v6) = _
  dsimp only [hostOps0]
  after_results
  rfl

open Cert.ReferenceIdeal.ReadP in
/-- After the first stretch: which nodes have positive degree. -/
theorem degPos1 (c : Dev nD) :
    W1 m ρ c (Proc.devRef .tc main_v12) = val_main_v12 (F := F) (m ((c : Thread nD τ).loc main_arg1)) := by
  show StableHlo.after hostOps0 (W0 m ρ c) (Proc.devRef .tc main_v12) = _
  dsimp only [hostOps0]
  after_results
  rfl

open Cert.ReferenceIdeal.ReadP in
/-- After the first stretch: the inverse square root of the degrees. -/
theorem rsqrtDeg1 (c : Dev nD) :
    W1 m ρ c (Proc.devRef .tc main_v13) = val_main_v13 (F := F) (m ((c : Thread nD τ).loc main_arg1)) := by
  show StableHlo.after hostOps0 (W0 m ρ c) (Proc.devRef .tc main_v13) = _
  dsimp only [hostOps0]
  after_results
  rfl

open Cert.ReferenceIdeal.ReadP in
/-- After the first stretch: the zero that stands where the degree is not positive. -/
theorem zeroElse1 (c : Dev nD) :
    W1 m ρ c (Proc.devRef .tc main_cst_2) = val_main_cst_2 (F := F) := by
  show StableHlo.after hostOps0 (W0 m ρ c) (Proc.devRef .tc main_cst_2) = _
  dsimp only [hostOps0]
  after_results
  rfl

open Cert.ReferenceIdeal.ReadP in
/-- After the selection: the normalising factor of every node. -/
theorem dinv2 (c : Dev nD) :
    W2 m ρ c (Proc.devRef .tc main_v14) = val_main_v14 (F := F) (m ((c : Thread nD τ).loc main_arg1)) := by
  show StableHlo.after hostOps0_1 (W1 m ρ c) (Proc.devRef .tc main_v14) = _
  have h12 := degPos1 m ρ c
  have h13 := rsqrtDeg1 m ρ c
  have hz := zeroElse1 m ρ c
  generalize W1 m ρ c = V at h12 h13 hz ⊢
  dsimp only [hostOps0_1]
  after_results
  simp only [TRef.ofBuf, TRef.toBuf, cast_eq]
  rw [h12, h13, hz]
  rfl

/-- A buffer that none of a stretch's operations writes. -/
theorem kept (ops : List (HloOp τ sig (Elt F))) (V : Valuation τ sig (Elt F)) (b : Ref sig .tc)
    (h : ∀ op ∈ ops, Proc.devRef .tc b ∉ op.writes) : StableHlo.after ops V (Proc.devRef .tc b) = V (Proc.devRef .tc b) :=
  StableHlo.after_of_forall_not_mem ops V h

open Cert.ReferenceIdeal.ReadP in
theorem src2 (c : Dev nD) : W2 m ρ c (Proc.devRef .tc main_v3) = val_main_v3 (F := F) (m ((c : Thread nD τ).loc main_arg1)) :=
  (kept hostOps0_1 (W1 m ρ c) main_v3 (by unwritten)).trans (src1 m ρ c)
open Cert.ReferenceIdeal.ReadP in
theorem dst2 (c : Dev nD) : W2 m ρ c (Proc.devRef .tc main_v6) = val_main_v6 (F := F) (m ((c : Thread nD τ).loc main_arg1)) :=
  (kept hostOps0_1 (W1 m ρ c) main_v6 (by unwritten)).trans (dst1 m ρ c)

open Cert.ReferenceIdeal.ReadP in
/-- Before the first dense layer: the weight of every edge. -/
theorem edgeWeight3 (c : Dev nD) :
    W3 m ρ c (Proc.devRef .tc main_v29) = val_main_v29 (F := F) (m ((c : Thread nD τ).loc main_arg1)) := by
  show StableHlo.after hostOps0_2 (W2 m ρ c) (Proc.devRef .tc main_v29) = _
  have h14 := dinv2 m ρ c
  have h3 := src2 m ρ c
  have h6 := dst2 m ρ c
  generalize W2 m ρ c = V at h14 h3 h6 ⊢
  dsimp only [hostOps0_2]
  after_results_simp
  rw [h14, h3, h6]
  rfl

open Cert.ReferenceIdeal.ReadP in
theorem src3 (c : Dev nD) : W3 m ρ c (Proc.devRef .tc main_v3) = val_main_v3 (F := F) (m ((c : Thread nD τ).loc main_arg1)) :=
  (kept hostOps0_2 (W2 m ρ c) main_v3 (by unwritten)).trans (src2 m ρ c)
open Cert.ReferenceIdeal.ReadP in
theorem dst3 (c : Dev nD) : W3 m ρ c (Proc.devRef .tc main_v6) = val_main_v6 (F := F) (m ((c : Thread nD τ).loc main_arg1)) :=
  (kept hostOps0_2 (W2 m ρ c) main_v6 (by unwritten)).trans (dst2 m ρ c)

/-- An argument that the first two stretches do not write. -/
theorem arg2_of (c : Dev nD) (b : Ref sig .tc) (h0 : ∀ op ∈ (hostOps0 : List (HloOp τ sig (Elt F))), Proc.devRef .tc b ∉ op.writes)
    (h1 : ∀ op ∈ (hostOps0_1 : List (HloOp τ sig (Elt F))), Proc.devRef .tc b ∉ op.writes) :
    W2 m ρ c (Proc.devRef .tc b) = W0 m ρ c (Proc.devRef .tc b) :=
  (kept hostOps0_1 (W1 m ρ c) b h1).trans (kept hostOps0 (W0 m ρ c) b h0)

/-- The first layer's left operand: x with its format changed. -/
theorem xCast3 (c : Dev nD) :
    W3 m ρ c (Proc.devRef .tc main_v31) = truncf .bf16 (m ((c : Thread nD τ).loc main_arg0)) bitsLt_bf16_f32 := by
  show StableHlo.after hostOps0_2 (W2 m ρ c) (Proc.devRef .tc main_v31) = _
  have h0 : W2 m ρ c (Proc.devRef .tc main_arg0) = (m ((c : Thread nD τ).loc main_arg0)) := (arg2_of m ρ c main_arg0 (by unwritten) (by unwritten)).trans rfl
  generalize W2 m ρ c = V at h0 ⊢
  dsimp only [hostOps0_2]
  after_results
  rw [h0]

/-- The first layer's right operand: W1 with its format changed. -/
theorem wCast3 (c : Dev nD) :
    W3 m ρ c (Proc.devRef .tc main_v32) = truncf .bf16 (m ((c : Thread nD τ).loc main_arg2)) bitsLt_bf16_f32 := by
  show StableHlo.after hostOps0_2 (W2 m ρ c) (Proc.devRef .tc main_v32) = _
  have h0 : W2 m ρ c (Proc.devRef .tc main_arg2) = (m ((c : Thread nD τ).loc main_arg2)) := (arg2_of m ρ c main_arg2 (by unwritten) (by unwritten)).trans rfl
  generalize W2 m ρ c = V at h0 ⊢
  dsimp only [hostOps0_2]
  after_results
  rw [h0]

/-- The first layer's bias operand: zeros. -/
theorem zeroBias3 (c : Dev nD) :
    W3 m ρ c (Proc.devRef .tc main_v30) = broadcastInDim S256 ![] bcast_S_S256 (constant (F := F) S_ .f32 0x00000000#32) := by
  show StableHlo.after hostOps0_2 (W2 m ρ c) (Proc.devRef .tc main_v30) = _
  generalize W2 m ρ c = V
  dsimp only [hostOps0_2]
  after_results

end Cert.GraphEncoder

end
-- ==== Proof.Carried.lean ====
/-
  The values that later stretches read again, followed through what does not write them.

  The two index vectors and the edge weights are computed once, before the first dense layer, and read again after the
  first and after the second; the arguments are never written. A dense layer writes only its result array, and a
  stretch of host operations only its own results, so each of these buffers holds at a layer's exit what it held
  before.
-/
import proofs.«105779_j87333864997319_1_alg».proof.Proof.Gen.KernelIdeal.Frame
import proofs.«105779_j87333864997319_1_alg».proof.Proof.RefRead
import proofs.«105779_j87333864997319_1_alg».proof.Proof.StagesA

noncomputable section

set_option maxRecDepth 16384

namespace Cert.GraphEncoder

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A stretch of host operations none of which writes the buffer leaves it as it was. -/
local macro "unwritten" : tactic => `(tactic| (
  refine List.forall_iff_forall_mem.mp ?_
  simp only [hostOps0, hostOps0_1, hostOps0_2, hostOps1, hostOps1_1, hostOps1_2, hostOps2, hostOps2_1, hostOps2_2, hostOps3,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Through the first dense layer -/

/-- A buffer the first three stretches and the first dense layer do not write holds its launch contents at the layer's exit. -/
theorem launch_at4 (c : Dev nD) (b : Ref sig .tc) (h0 : ∀ op ∈ (hostOps0 : List (HloOp τ sig (Elt F))), Proc.devRef .tc b ∉ op.writes) (h1 : ∀ op ∈ (hostOps0_1 : List (HloOp τ sig (Elt F))), Proc.devRef .tc b ∉ op.writes) (h2 : ∀ op ∈ (hostOps0_2 : List (HloOp τ sig (Elt F))), Proc.devRef .tc b ∉ op.writes)
    (hne : ∀ w, Pipeline.arrRef spec0 w ≠ b) : W4 m ρ c (Proc.devRef .tc b) = W0 m ρ c (Proc.devRef .tc b) :=
  (W4_of_ne m ρ c b hne).trans ((kept hostOps0_2 (W2 m ρ c) b h2).trans ((kept hostOps0_1 (W1 m ρ c) b h1).trans (kept hostOps0 (W0 m ρ c) b h0)))

open Cert.ReferenceIdeal.ReadP in
theorem src4 (c : Dev nD) : W4 m ρ c (Proc.devRef .tc main_v3) = val_main_v3 (F := F) (m ((c : Thread nD τ).loc main_arg1)) :=
  (W4_of_ne m ρ c main_v3 (by decide)).trans (src3 m ρ c)
open Cert.ReferenceIdeal.ReadP in
theorem dst4 (c : Dev nD) : W4 m ρ c (Proc.devRef .tc main_v6) = val_main_v6 (F := F) (m ((c : Thread nD τ).loc main_arg1)) :=
  (W4_of_ne m ρ c main_v6 (by decide)).trans (dst3 m ρ c)
open Cert.ReferenceIdeal.ReadP in
theorem edgeWeight4 (c : Dev nD) : W4 m ρ c (Proc.devRef .tc main_v29) = val_main_v29 (F := F) (m ((c : Thread nD τ).loc main_arg1)) :=
  (W4_of_ne m ρ c main_v29 (by decide)).trans (edgeWeight3 m ρ c)
theorem bias1At4 (c : Dev nD) : W4 m ρ c (Proc.devRef .tc main_arg3) = (m ((c : Thread nD τ).loc main_arg3)) :=
  (launch_at4 m ρ c main_arg3 (by unwritten) (by unwritten) (by unwritten) (by decide)).trans rfl
theorem w2At4 (c : Dev nD) : W4 m ρ c (Proc.devRef .tc main_arg4) = (m ((c : Thread nD τ).loc main_arg4)) :=
  (launch_at4 m ρ c main_arg4 (by unwritten) (by unwritten) (by unwritten) (by decide)).trans rfl

/-! ## Through the second dense layer -/

/-- A buffer the next three stretches and the second dense layer do not write holds at that layer's exit what it held at
    the first layer's. -/
theorem at8_of_at4 (c : Dev nD) (b : Ref sig .tc) (h0 : ∀ op ∈ (hostOps1 : List (HloOp τ sig (Elt F))), Proc.devRef .tc b ∉ op.writes) (h1 : ∀ op ∈ (hostOps1_1 : List (HloOp τ sig (Elt F))), Proc.devRef .tc b ∉ op.writes) (h2 : ∀ op ∈ (hostOps1_2 : List (HloOp τ sig (Elt F))), Proc.devRef .tc b ∉ op.writes)
    (hne : ∀ w, Pipeline.arrRef spec1 w ≠ b) : W8 m ρ c (Proc.devRef .tc b) = W4 m ρ c (Proc.devRef .tc b) :=
  (W8_of_ne m ρ c b hne).trans ((kept hostOps1_2 (W6 m ρ c) b h2).trans ((kept hostOps1_1 (W5 m ρ c) b h1).trans (kept hostOps1 (W4 m ρ c) b h0)))

open Cert.ReferenceIdeal.ReadP in
theorem src8 (c : Dev nD) : W8 m ρ c (Proc.devRef .tc main_v3) = val_main_v3 (F := F) (m ((c : Thread nD τ).loc main_arg1)) :=
  (at8_of_at4 m ρ c main_v3 (by unwritten) (by unwritten) (by unwritten) (by decide)).trans (src4 m ρ c)
open Cert.ReferenceIdeal.ReadP in
theorem dst8 (c : Dev nD) : W8 m ρ c (Proc.devRef .tc main_v6) = val_main_v6 (F := F) (m ((c : Thread nD τ).loc main_arg1)) :=
  (at8_of_at4 m ρ c main_v6 (by unwritten) (by unwritten) (by unwritten) (by decide)).trans (dst4 m ρ c)
open Cert.ReferenceIdeal.ReadP in
theorem edgeWeight8 (c : Dev nD) : W8 m ρ c (Proc.devRef .tc main_v29) = val_main_v29 (F := F) (m ((c : Thread nD τ).loc main_arg1)) :=
  (at8_of_at4 m ρ c main_v29 (by unwritten) (by unwritten) (by unwritten) (by decide)).trans (edgeWeight4 m ρ c)
/-- An argument at the second layer's exit. -/
theorem launch_at8 (c : Dev nD) (b : Ref sig .tc) (h0 : ∀ op ∈ (hostOps0 : List (HloOp τ sig (Elt F))), Proc.devRef .tc b ∉ op.writes) (h1 : ∀ op ∈ (hostOps0_1 : List (HloOp τ sig (Elt F))), Proc.devRef .tc b ∉ op.writes) (h2 : ∀ op ∈ (hostOps0_2 : List (HloOp τ sig (Elt F))), Proc.devRef .tc b ∉ op.writes)
    (hne : ∀ w, Pipeline.arrRef spec0 w ≠ b)
    (g0 : ∀ op ∈ (hostOps1 : List (HloOp τ sig (Elt F))), Proc.devRef .tc b ∉ op.writes) (g1 : ∀ op ∈ (hostOps1_1 : List (HloOp τ sig (Elt F))), Proc.devRef .tc b ∉ op.writes) (g2 : ∀ op ∈ (hostOps1_2 : List (HloOp τ sig (Elt F))), Proc.devRef .tc b ∉ op.writes)
    (gne : ∀ w, Pipeline.arrRef spec1 w ≠ b) : W8 m ρ c (Proc.devRef .tc b) = W0 m ρ c (Proc.devRef .tc b) :=
  (at8_of_at4 m ρ c b g0 g1 g2 gne).trans (launch_at4 m ρ c b h0 h1 h2 hne)
theorem arg5At8 (c : Dev nD) : W8 m ρ c (Proc.devRef .tc main_arg5) = (m ((c : Thread nD τ).loc main_arg5)) :=
  (launch_at8 m ρ c main_arg5 (by unwritten) (by unwritten) (by unwritten) (by decide) (by unwritten) (by unwritten) (by unwritten) (by decide)).trans rfl
theorem arg6At8 (c : Dev nD) : W8 m ρ c (Proc.devRef .tc main_arg6) = (m ((c : Thread nD τ).loc main_arg6)) :=
  (launch_at8 m ρ c main_arg6 (by unwritten) (by unwritten) (by unwritten) (by decide) (by unwritten) (by unwritten) (by unwritten) (by decide)).trans rfl
theorem arg7At8 (c : Dev nD) : W8 m ρ c (Proc.devRef .tc main_arg7) = (m ((c : Thread nD τ).loc main_arg7)) :=
  (launch_at8 m ρ c main_arg7 (by unwritten) (by unwritten) (by unwritten) (by decide) (by unwritten) (by unwritten) (by unwritten) (by decide)).trans rfl
theorem arg8At8 (c : Dev nD) : W8 m ρ c (Proc.devRef .tc main_arg8) = (m ((c : Thread nD τ).loc main_arg8)) :=
  (launch_at8 m ρ c main_arg8 (by unwritten) (by unwritten) (by unwritten) (by decide) (by unwritten) (by unwritten) (by unwritten) (by decide)).trans rfl
theorem arg9At8 (c : Dev nD) : W8 m ρ c (Proc.devRef .tc main_arg9) = (m ((c : Thread nD τ).loc main_arg9)) :=
  (launch_at8 m ρ c main_arg9 (by unwritten) (by unwritten) (by unwritten) (by decide) (by unwritten) (by unwritten) (by unwritten) (by decide)).trans rfl

end Cert.GraphEncoder

end
-- ==== Proof.StagesB.lean ====
/-
  Between the first and the second dense layer.

  With the first layer's result the plain product x · W1, the kernel's program goes on exactly as the reference does:
  it gathers the product's rows at the edges' sources, scales each by its edge weight, sums them at the targets, adds
  the bias b1 and takes the positive part: the hidden features h. It then lays out the second layer's operands: h and
  W2 with their format changed, and a zero bias.
-/
import proofs.«105779_j87333864997319_1_alg».proof.Proof.Gen.KernelIdeal.Frame
import proofs.«105779_j87333864997319_1_alg».proof.Proof.RefRead
import proofs.«105779_j87333864997319_1_alg».proof.Proof.Carried

noncomputable section

set_option maxRecDepth 16384

namespace Cert.GraphEncoder

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A stretch of host operations none of which writes the buffer leaves it as it was. -/
local macro "unwritten" : tactic => `(tactic| (
  refine List.forall_iff_forall_mem.mp ?_
  simp only [hostOps0, hostOps0_1, hostOps0_2, hostOps1, hostOps1_1, hostOps1_2, hostOps2, hostOps2_1, hostOps2_2, hostOps3,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

open Cert.ReferenceIdeal.ReadP in
/-- The hidden features, given that the first layer's result is x · W1. -/
theorem hidden6 (c : Dev nD)
    (h33 : W4 m ρ c (Proc.devRef .tc main_v33) = val_main_v30 (F := F) (m ((c : Thread nD τ).loc main_arg0)) (m ((c : Thread nD τ).loc main_arg2))) :
    W6 m ρ c (Proc.devRef .tc main_v50) = val_main_v47 (F := F) (m ((c : Thread nD τ).loc main_arg0)) (m ((c : Thread nD τ).loc main_arg1)) (m ((c : Thread nD τ).loc main_arg2)) (m ((c : Thread nD τ).loc main_arg3)) := by
  show StableHlo.after hostOps1_1 (StableHlo.after hostOps1 (W4 m ρ c)) (Proc.devRef .tc main_v50) = _
  have h3 := src4 m ρ c
  have h6 := dst4 m ρ c
  have h29 := edgeWeight4 m ρ c
  have hb := bias1At4 m ρ c
  generalize W4 m ρ c = V at h33 h3 h6 h29 hb ⊢
  dsimp only [hostOps1_1, hostOps1]
  after_results_simp
  simp only [TRef.ofBuf, TRef.toBuf, cast_eq]
  rw [h33, h3, h6, h29, hb]
  rfl

open Cert.ReferenceIdeal.ReadP in
/-- The second layer's left operand: h with its format changed. -/
theorem hCast7 (c : Dev nD)
    (h33 : W4 m ρ c (Proc.devRef .tc main_v33) = val_main_v30 (F := F) (m ((c : Thread nD τ).loc main_arg0)) (m ((c : Thread nD τ).loc main_arg2))) :
    W7 m ρ c (Proc.devRef .tc main_v52) = truncf .bf16 (val_main_v47 (F := F) (m ((c : Thread nD τ).loc main_arg0)) (m ((c : Thread nD τ).loc main_arg1)) (m ((c : Thread nD τ).loc main_arg2)) (m ((c : Thread nD τ).loc main_arg3))) bitsLt_bf16_f32 := by
  show StableHlo.after hostOps1_2 (W6 m ρ c) (Proc.devRef .tc main_v52) = _
  have h := hidden6 m ρ c h33
  generalize W6 m ρ c = V at h ⊢
  dsimp only [hostOps1_2]
  after_results
  rw [h]

/-- The second layer's right operand: W2 with its format changed. -/
theorem w2Cast7 (c : Dev nD) :
    W7 m ρ c (Proc.devRef .tc main_v53) = truncf .bf16 (m ((c : Thread nD τ).loc main_arg4)) bitsLt_bf16_f32 := by
  show StableHlo.after hostOps1_2 (W6 m ρ c) (Proc.devRef .tc main_v53) = _
  have h : W6 m ρ c (Proc.devRef .tc main_arg4) = (m ((c : Thread nD τ).loc main_arg4)) :=
    (kept hostOps1_1 (W5 m ρ c) main_arg4 (by unwritten)).trans ((kept hostOps1 (W4 m ρ c) main_arg4 (by unwritten)).trans (w2At4 m ρ c))
  generalize W6 m ρ c = V at h ⊢
  dsimp only [hostOps1_2]
  after_results
  rw [h]

/-- The second layer's bias operand: zeros. -/
theorem zeroBias7 (c : Dev nD) :
    W7 m ρ c (Proc.devRef .tc main_v51) = broadcastInDim S128 ![] bcast_S_S128 (constant (F := F) S_ .f32 0x00000000#32) := by
  show StableHlo.after hostOps1_2 (W6 m ρ c) (Proc.devRef .tc main_v51) = _
  generalize W6 m ρ c = V
  dsimp only [hostOps1_2]
  after_results

end Cert.GraphEncoder

end
-- ==== Proof.StagesC.lean ====
/-
  Between the second and the third dense layer.

  With the second layer's result the plain product h · W2, the kernel's program again goes on as the reference does:
  gather at the sources, scale by the edge weights, sum at the targets, add b2, take the positive part: the latent
  features z. It then lays out the third layer's operands: z with its format changed, the two heads' weight matrices
  side by side with their format changed, and the two heads' biases end to end.
-/
import proofs.«105779_j87333864997319_1_alg».proof.Proof.Gen.KernelIdeal.Frame
import proofs.«105779_j87333864997319_1_alg».proof.Proof.RefRead
import proofs.«105779_j87333864997319_1_alg».proof.Proof.Carried

noncomputable section

set_option maxRecDepth 16384

namespace Cert.GraphEncoder

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A stretch of host operations none of which writes the buffer leaves it as it was. -/
local macro "unwritten" : tactic => `(tactic| (
  refine List.forall_iff_forall_mem.mp ?_
  simp only [hostOps0, hostOps0_1, hostOps0_2, hostOps1, hostOps1_1, hostOps1_2, hostOps2, hostOps2_1, hostOps2_2, hostOps3,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

open Cert.ReferenceIdeal.ReadP in
/-- The latent features, given that the second layer's result is h · W2. -/
theorem latent10 (c : Dev nD)
    (h54 : W8 m ρ c (Proc.devRef .tc main_v54) = val_main_v48 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W10 m ρ c (Proc.devRef .tc main_v71) = val_main_v65 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2_1 (StableHlo.after hostOps2 (W8 m ρ c)) (Proc.devRef .tc main_v71) = _
  have h3 := src8 m ρ c
  have h6 := dst8 m ρ c
  have h29 := edgeWeight8 m ρ c
  have hb := arg5At8 m ρ c
  generalize W8 m ρ c = V at h54 h3 h6 h29 hb ⊢
  dsimp only [hostOps2_1, hostOps2]
  after_results_simp
  simp only [TRef.ofBuf, TRef.toBuf, cast_eq]
  rw [h54, h3, h6, h29, hb]
  rfl

open Cert.ReferenceIdeal.ReadP in
/-- The third layer's left operand: z with its format changed. -/
theorem zCast11 (c : Dev nD)
    (h54 : W8 m ρ c (Proc.devRef .tc main_v54) = val_main_v48 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W11 m ρ c (Proc.devRef .tc main_v74) = truncf .bf16 (val_main_v65 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) bitsLt_bf16_f32 := by
  show StableHlo.after hostOps2_2 (W10 m ρ c) (Proc.devRef .tc main_v74) = _
  have h := latent10 m ρ c h54
  generalize W10 m ρ c = V at h ⊢
  dsimp only [hostOps2_2]
  after_results
  rw [h]

/-- An argument at the entry of the last stretch before the third layer. -/
theorem at10_of_at8 (c : Dev nD) (b : Ref sig .tc) (h0 : ∀ op ∈ (hostOps2 : List (HloOp τ sig (Elt F))), Proc.devRef .tc b ∉ op.writes) (h1 : ∀ op ∈ (hostOps2_1 : List (HloOp τ sig (Elt F))), Proc.devRef .tc b ∉ op.writes) :
    W10 m ρ c (Proc.devRef .tc b) = W8 m ρ c (Proc.devRef .tc b) :=
  (kept hostOps2_1 (W9 m ρ c) b h1).trans (kept hostOps2 (W8 m ρ c) b h0)

/-- The third layer's right operand: the two heads' weights side by side, with their format changed. -/
theorem wHeads11 (c : Dev nD) :
    W11 m ρ c (Proc.devRef .tc main_v75)
      = truncf .bf16 (concatenate S128x256 1 [⟨S128x128, (m ((c : Thread nD τ).loc main_arg6))⟩, ⟨S128x128, (m ((c : Thread nD τ).loc main_arg8))⟩] concatenates_S128x128_S128x128_S128x256_d1) bitsLt_bf16_f32 := by
  show StableHlo.after hostOps2_2 (W10 m ρ c) (Proc.devRef .tc main_v75) = _
  have h6 : W10 m ρ c (Proc.devRef .tc main_arg6) = (m ((c : Thread nD τ).loc main_arg6)) := (at10_of_at8 m ρ c main_arg6 (by unwritten) (by unwritten)).trans (arg6At8 m ρ c)
  have h8 : W10 m ρ c (Proc.devRef .tc main_arg8) = (m ((c : Thread nD τ).loc main_arg8)) := (at10_of_at8 m ρ c main_arg8 (by unwritten) (by unwritten)).trans (arg8At8 m ρ c)
  generalize W10 m ρ c = V at h6 h8 ⊢
  dsimp only [hostOps2_2]
  after_results
  rw [h6, h8]

/-- The third layer's bias operand: the two heads' biases end to end. -/
theorem bHeads11 (c : Dev nD) :
    W11 m ρ c (Proc.devRef .tc main_v73)
      = concatenate S256 0 [⟨S128, (m ((c : Thread nD τ).loc main_arg7))⟩, ⟨S128, (m ((c : Thread nD τ).loc main_arg9))⟩] concatenates_S128_S128_S256_d0 := by
  show StableHlo.after hostOps2_2 (W10 m ρ c) (Proc.devRef .tc main_v73) = _
  have h7 : W10 m ρ c (Proc.devRef .tc main_arg7) = (m ((c : Thread nD τ).loc main_arg7)) := (at10_of_at8 m ρ c main_arg7 (by unwritten) (by unwritten)).trans (arg7At8 m ρ c)
  have h9 : W10 m ρ c (Proc.devRef .tc main_arg9) = (m ((c : Thread nD τ).loc main_arg9)) := (at10_of_at8 m ρ c main_arg9 (by unwritten) (by unwritten)).trans (arg9At8 m ρ c)
  generalize W10 m ρ c = V at h7 h9 ⊢
  dsimp only [hostOps2_2]
  after_results
  rw [h7, h9]

end Cert.GraphEncoder

end
-- ==== Proof.DenseIsDot.lean ====
/-
  The dense layers against the reference's matrix products, over the extended reals.

  A change of float format is the identity there, and adding the zero bias changes nothing, so the first two layers —
  run on x and W with their format changed and a bias of zeros — are the plain products x · W the reference takes.
  The third layer runs on the two heads' weight matrices laid side by side and the two biases end to end: columns
  0 … 127 of its result are z · mu_W + mu_b and columns 128 … 255 are z · lv_W + lv_b, which are the reference's two
  results.
-/
import proofs.«105779_j87333864997319_1_alg».proof.Proof.Affine
import proofs.«105779_j87333864997319_1_alg».proof.Proof.Gen.KernelIdeal
import proofs.«105779_j87333864997319_1_alg».proof.Proof.RefRead
import Idealize.ShloMosaic.Lib.Pipeline.Value
import Idealize.ShloMosaic.Lib.ValueIdx
import Idealize.ShloMosaic.Lib.ValueLayout
import Idealize.ShloMosaic.PureOps.Ideal.Laws

noncomputable section

namespace Cert.GraphEncoder

open Idealize.ShloMosaic Idealize.ShloMosaic.ValueIdx Cert.KernelIdeal Cert.KernelIdeal.Gen

/-! ## The reference's products, entry by entry -/

/-- x · W1 at (r, q): row r of x against column q of W1. -/
theorem dotXW1_apply (x : FVec Ideal S50000x128 .f32) (w : FVec Ideal S128x256 .f32) (r : Fin 50000) (q : Fin 256) :
    Host.dotGeneral Cert.ReferenceIdeal.dot_S50000x128_S128x256_S50000x256_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x256_S50000x256_1_0_0_1_n_n 128 rfl rfl).symm]
  refine Finset.sum_congr rfl fun k _ => ?_
  have hk := contrEquiv1_symm_val Cert.ReferenceIdeal.dot_S50000x128_S128x256_S50000x256_1_0_0_1_n_n 128 rfl rfl k
  have el : Cert.ReferenceIdeal.dot_S50000x128_S128x256_S50000x256_1_0_0_1_n_n.lhsIdx (ix2 r q) ((contrEquiv1 Cert.ReferenceIdeal.dot_S50000x128_S128x256_S50000x256_1_0_0_1_n_n 128 rfl rfl).symm k) = ix2 r k := funext fun a => Fin.ext (by
    match a with
    | ⟨0, _⟩ => exact Cert.ReferenceIdeal.ReadP.lhs_main_v30_0 _ _
    | ⟨1, _⟩ => exact (Cert.ReferenceIdeal.ReadP.lhs_main_v30_1 _ _).trans hk)
  have er : Cert.ReferenceIdeal.dot_S50000x128_S128x256_S50000x256_1_0_0_1_n_n.rhsIdx (ix2 r q) ((contrEquiv1 Cert.ReferenceIdeal.dot_S50000x128_S128x256_S50000x256_1_0_0_1_n_n 128 rfl rfl).symm k) = ix2 k q := funext fun a => Fin.ext (by
    match a with
    | ⟨0, _⟩ => exact (Cert.ReferenceIdeal.ReadP.rhs_main_v30_0 _ _).trans hk
    | ⟨1, _⟩ => exact Cert.ReferenceIdeal.ReadP.rhs_main_v30_1 _ _)
  rw [el, er]

/-- h · W2 at (r, q). -/
theorem dotHW2_apply (x : FVec Ideal S50000x256 .f32) (w : FVec Ideal S256x128 .f32) (r : Fin 50000) (q : Fin 128) :
    Host.dotGeneral Cert.ReferenceIdeal.dot_S50000x256_S256x128_S50000x128_1_0_0_1_n_n none x w (ix2 r q) = ∑ k : Fin 256, x (ix2 r k) * w (ix2 k q) := by
  simp only [Host.dotGeneral]
  rw [Ideal.dotGeneral_apply, ← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 r q) ((contrEquiv1 Cert.ReferenceIdeal.dot_S50000x256_S256x128_S50000x128_1_0_0_1_n_n 256 rfl rfl).symm k) = ix2 r k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S50000x256_S256x128_S50000x128_1_0_0_1_n_n.rhsIdx (ix2 r q) ((contrEquiv1 Cert.ReferenceIdeal.dot_S50000x256_S256x128_S50000x128_1_0_0_1_n_n 256 rfl rfl).symm k) = ix2 k q := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]

/-- z against one head's weights, at (r, q). -/
theorem dotZHead_apply (x : FVec Ideal S50000x128 .f32) (w : FVec Ideal S128x128 .f32) (r : Fin 50000) (q : Fin 128) :
    Host.dotGeneral Cert.ReferenceIdeal.dot_S50000x128_S128x128_S50000x128_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact Cert.ReferenceIdeal.ReadP.lhs_main_v66_0 _ _
    | ⟨1, _⟩ => exact (Cert.ReferenceIdeal.ReadP.lhs_main_v66_1 _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (Cert.ReferenceIdeal.ReadP.rhs_main_v66_0 _ _).trans hk
    | ⟨1, _⟩ => exact Cert.ReferenceIdeal.ReadP.rhs_main_v66_1 _ _)
  rw [el, er]

/-! ## The first two layers -/

/-- The first layer on format-changed x and W1 with a zero bias is x · W1. -/
theorem denseA_zero_bias (x : FVec Ideal S50000x128 .f32) (w : FVec Ideal S128x256 .f32) :
    denseA (truncf .bf16 x bitsLt_bf16_f32) (truncf .bf16 w bitsLt_bf16_f32)
        (broadcastInDim S256 ![] bcast_S_S256 (constant (F := Ideal) S_ .f32 0x00000000#32))
      = Host.dotGeneral Cert.ReferenceIdeal.dot_S50000x128_S128x256_S50000x256_1_0_0_1_n_n none x w := by
  funext i
  obtain ⟨r, q, rfl⟩ : ∃ (r : Fin 50000) (q : Fin 256), i = ix2 r q := ⟨i 0, i 1, eq_ix2 i⟩
  rw [dotXW1_apply, denseA_apply]
  show (∑ k : Fin 128, x (ix2 r k) * w (ix2 k q)) + Ideal.ofBits .f32 0x00000000#32 = _
  rw [Ideal.ofBits_zero_f32, add_zero]

/-- The second layer on format-changed h and W2 with a zero bias is h · W2. -/
theorem denseB_zero_bias (x : FVec Ideal S50000x256 .f32) (w : FVec Ideal S256x128 .f32) :
    denseB (truncf .bf16 x bitsLt_bf16_f32) (truncf .bf16 w bitsLt_bf16_f32)
        (broadcastInDim S128 ![] bcast_S_S128 (constant (F := Ideal) S_ .f32 0x00000000#32))
      = Host.dotGeneral Cert.ReferenceIdeal.dot_S50000x256_S256x128_S50000x128_1_0_0_1_n_n none x w := by
  funext i
  obtain ⟨r, q, rfl⟩ : ∃ (r : Fin 50000) (q : Fin 128), i = ix2 r q := ⟨i 0, i 1, eq_ix2 i⟩
  rw [dotHW2_apply, denseB_apply]
  show (∑ k : Fin 256, x (ix2 r k) * w (ix2 k q)) + Ideal.ofBits .f32 0x00000000#32 = _
  rw [Ideal.ofBits_zero_f32, add_zero]

end Cert.GraphEncoder

end
-- ==== Proof.Heads.lean ====
/-
  The two heads. The third dense layer runs once on the two heads' weight matrices laid side by side (a 128 by 256
  matrix) and their biases laid end to end (256 entries). Column c < 128 of its result is z against column c of mu_W
  plus mu_b(c); column 128 + c is z against column c of lv_W plus lv_b(c). Cutting the result into its left and right
  halves therefore gives the reference's two results, z · mu_W + mu_b and z · lv_W + lv_b.
-/
import proofs.«105779_j87333864997319_1_alg».proof.Proof.DenseIsDot

noncomputable section

namespace Cert.GraphEncoder

open Idealize.ShloMosaic Idealize.ShloMosaic.ValueIdx Cert.KernelIdeal Cert.KernelIdeal.Gen

/-- The left half of the fused layer is z · mu_W + mu_b. -/
theorem muHead (z : FVec Ideal S50000x128 .f32) (w6 w8 : FVec Ideal S128x128 .f32) (b7 b9 : FVec Ideal S128 .f32) :
    extractStridedSlice S50000x128 ![0, 0]
        (denseA (truncf .bf16 z bitsLt_bf16_f32)
          (truncf .bf16 (concatenate S128x256 1 [⟨S128x128, w6⟩, ⟨S128x128, w8⟩] concatenates_S128x128_S128x128_S128x256_d1) bitsLt_bf16_f32)
          (concatenate S256 0 [⟨S128, b7⟩, ⟨S128, b9⟩] concatenates_S128_S128_S256_d0))
        slices_S50000x256_S50000x128_0_0
      = addf (Host.dotGeneral Cert.ReferenceIdeal.dot_S50000x128_S128x128_S50000x128_1_0_0_1_n_n none z w6) (Cert.ReferenceIdeal.ReadP.val_main_v68 (F := Ideal) b7) := by
  funext i
  obtain ⟨r, q, rfl⟩ : ∃ (r : Fin 50000) (q : Fin 128), i = ix2 r q := ⟨i 0, i 1, eq_ix2 i⟩
  have hq : q.val < 128 := q.isLt
  -- the column of the fused result that this entry is
  let k : Fin 256 := ⟨q.val, by omega⟩
  refine (slice2_axis1_apply 0 _ slices_S50000x256_S50000x128_0_0 r q k (by show q.val = 0 + q.val; omega)).trans ?_
  rw [denseA_apply]
  show (∑ j : Fin 128, z (ix2 r j) * concatenate S128x256 1 [⟨S128x128, w6⟩, ⟨S128x128, w8⟩] concatenates_S128x128_S128x128_S128x256_d1 (ix2 j k))
      + concatenate S256 0 [⟨S128, b7⟩, ⟨S128, b9⟩] concatenates_S128_S128_S256_d0 (ix1 k)
      = Host.dotGeneral Cert.ReferenceIdeal.dot_S50000x128_S128x128_S50000x128_1_0_0_1_n_n none z w6 (ix2 r q) + Cert.ReferenceIdeal.ReadP.val_main_v68 (F := Ideal) b7 (ix2 r q)
  rw [dotZHead_apply]
  refine congrArg₂ (· + ·) (Finset.sum_congr rfl fun j _ => congrArg (z (ix2 r j) * ·) ?_) ?_
  · refine concatenate_pair_apply_left (1 : Fin 2) w6 w8 concatenates_S128x128_S128x128_S128x256_d1 (ix2 j k) rfl (ix2 j q) fun b => ?_
    match b with
    | ⟨0, _⟩ => rfl
    | ⟨1, _⟩ => rfl
  · refine (concatenate_pair_apply_left (0 : Fin 1) b7 b9 concatenates_S128_S128_S256_d0 (ix1 k) rfl (ix1 q) fun b => ?_).trans ?_
    · match b with
      | ⟨0, _⟩ => rfl
    · rw [Cert.ReferenceIdeal.ReadP.val_main_v68_apply, Cert.ReferenceIdeal.ReadP.val_main_v67_apply]
      exact congrArg b7 (funext fun a => Fin.ext (by match a with | ⟨0, _⟩ => rfl))

/-- The right half of the fused layer is z · lv_W + lv_b. -/
theorem logVarHead (z : FVec Ideal S50000x128 .f32) (w6 w8 : FVec Ideal S128x128 .f32) (b7 b9 : FVec Ideal S128 .f32) :
    extractStridedSlice S50000x128 ![0, 128]
        (denseA (truncf .bf16 z bitsLt_bf16_f32)
          (truncf .bf16 (concatenate S128x256 1 [⟨S128x128, w6⟩, ⟨S128x128, w8⟩] concatenates_S128x128_S128x128_S128x256_d1) bitsLt_bf16_f32)
          (concatenate S256 0 [⟨S128, b7⟩, ⟨S128, b9⟩] concatenates_S128_S128_S256_d0))
        slices_S50000x256_S50000x128_0_128
      = addf (Host.dotGeneral Cert.ReferenceIdeal.dot_S50000x128_S128x128_S50000x128_1_0_0_1_n_n none z w8) (Cert.ReferenceIdeal.ReadP.val_main_v72 (F := Ideal) b9) := by
  funext i
  obtain ⟨r, q, rfl⟩ : ∃ (r : Fin 50000) (q : Fin 128), i = ix2 r q := ⟨i 0, i 1, eq_ix2 i⟩
  have hq : q.val < 128 := q.isLt
  -- the column of the fused result that this entry is
  let k : Fin 256 := ⟨128 + q.val, by omega⟩
  refine (slice2_axis1_apply 128 _ slices_S50000x256_S50000x128_0_128 r q k (by show 128 + q.val = 128 + q.val; omega)).trans ?_
  rw [denseA_apply]
  show (∑ j : Fin 128, z (ix2 r j) * concatenate S128x256 1 [⟨S128x128, w6⟩, ⟨S128x128, w8⟩] concatenates_S128x128_S128x128_S128x256_d1 (ix2 j k))
      + concatenate S256 0 [⟨S128, b7⟩, ⟨S128, b9⟩] concatenates_S128_S128_S256_d0 (ix1 k)
      = Host.dotGeneral Cert.ReferenceIdeal.dot_S50000x128_S128x128_S50000x128_1_0_0_1_n_n none z w8 (ix2 r q) + Cert.ReferenceIdeal.ReadP.val_main_v72 (F := Ideal) b9 (ix2 r q)
  rw [dotZHead_apply]
  refine congrArg₂ (· + ·) (Finset.sum_congr rfl fun j _ => congrArg (z (ix2 r j) * ·) ?_) ?_
  · refine concatenate_pair_apply_right (1 : Fin 2) w6 w8 concatenates_S128x128_S128x128_S128x256_d1 (ix2 j k) rfl rfl (ix2 j q) (fun b hb => ?_) ?_
    · match b with
      | ⟨0, _⟩ => rfl
      | ⟨1, _⟩ => exact absurd rfl hb
    · show q.val + 128 = 128 + q.val
      omega
  · refine (concatenate_pair_apply_right (0 : Fin 1) b7 b9 concatenates_S128_S128_S256_d0 (ix1 k) rfl rfl (ix1 q) (fun b hb => ?_) ?_).trans ?_
    · match b with
      | ⟨0, _⟩ => exact absurd rfl hb
    · show q.val + 128 = 128 + q.val
      omega
    · rw [Cert.ReferenceIdeal.ReadP.val_main_v72_apply, Cert.ReferenceIdeal.ReadP.val_main_v71_apply]
      exact congrArg b9 (funext fun a => Fin.ext (by match a with | ⟨0, _⟩ => rfl))

end Cert.GraphEncoder

end
-- ==== Proof.Layers.lean ====
/-
  The kernel's program, layer by layer, against the reference, over the extended reals.

  First layer: its result array is the dense layer of x and W1 with their format changed and a zero bias, which is the
  plain product x · W1. So the hidden features h agree with the reference's, and the second layer's result, the dense
  layer of h and W2 with their format changed and a zero bias, is h · W2. So the latent features z agree, and the
  third layer's result is the dense layer of z against the two heads' weights side by side and their biases end to
  end; its left and right halves are the reference's two results.
-/
import proofs.«105779_j87333864997319_1_alg».proof.Proof.Region0
import proofs.«105779_j87333864997319_1_alg».proof.Proof.Region1
import proofs.«105779_j87333864997319_1_alg».proof.Proof.Region2
import proofs.«105779_j87333864997319_1_alg».proof.Proof.StagesB
import proofs.«105779_j87333864997319_1_alg».proof.Proof.StagesC
import proofs.«105779_j87333864997319_1_alg».proof.Proof.Heads

noncomputable section

set_option maxRecDepth 16384

namespace Cert.GraphEncoder

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

open Cert.ReferenceIdeal.ReadP in
/-- The first layer's result is x · W1. -/
theorem layer1 (c : Dev nD) :
    W4 m ρ c (Proc.devRef .tc main_v33) = val_main_v30 (F := Ideal) (m ((c : Thread nD τ).loc main_arg0)) (m ((c : Thread nD τ).loc main_arg2)) := by
  refine (W4_arr m ρ c 3).trans ((array0 (V3 m ρ) c).trans ?_)
  show denseA (W3 m ρ c (Proc.devRef .tc main_v31)) (W3 m ρ c (Proc.devRef .tc main_v32)) (W3 m ρ c (Proc.devRef .tc main_v30)) = _
  rw [xCast3 m ρ c, wCast3 m ρ c, zeroBias3 m ρ c]
  exact denseA_zero_bias _ _

open Cert.ReferenceIdeal.ReadP in
/-- The second layer's result is h · W2. -/
theorem layer2 (c : Dev nD) :
    W8 m ρ c (Proc.devRef .tc main_v54) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 3).trans ((array1 (V7 m ρ) c).trans ?_)
  show denseB (W7 m ρ c (Proc.devRef .tc main_v52)) (W7 m ρ c (Proc.devRef .tc main_v53)) (W7 m ρ c (Proc.devRef .tc main_v51)) = _
  rw [hCast7 m ρ c (layer1 m ρ c), w2Cast7 m ρ c, zeroBias7 m ρ c]
  exact denseB_zero_bias _ _

open Cert.ReferenceIdeal.ReadP in
/-- The third layer's result: z against the two heads side by side. -/
theorem layer3 (c : Dev nD) :
    W12 m ρ c (Proc.devRef .tc main_v76)
      = denseA (truncf (F := Ideal) .bf16 (val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) bitsLt_bf16_f32)
          (truncf (F := Ideal) .bf16 (concatenate S128x256 1 [⟨S128x128, (m ((c : Thread nD τ).loc main_arg6))⟩, ⟨S128x128, (m ((c : Thread nD τ).loc main_arg8))⟩] concatenates_S128x128_S128x128_S128x256_d1) bitsLt_bf16_f32)
          (concatenate S256 0 [⟨S128, (m ((c : Thread nD τ).loc main_arg7))⟩, ⟨S128, (m ((c : Thread nD τ).loc main_arg9))⟩] concatenates_S128_S128_S256_d0) := by
  refine (W12_arr m ρ c 3).trans ((array2 (V11 m ρ) c).trans ?_)
  show denseA (W11 m ρ c (Proc.devRef .tc main_v74)) (W11 m ρ c (Proc.devRef .tc main_v75)) (W11 m ρ c (Proc.devRef .tc main_v73)) = _
  rw [zCast11 m ρ c (layer2 m ρ c), wHeads11 m ρ c, bHeads11 m ρ c]

open Cert.ReferenceIdeal.ReadP in
/-- The first result: the left half of the third layer is the reference's mu. -/
theorem mu_eq (c : Dev nD) :
    W13 m ρ c (Proc.devRef .tc main_v77) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W12 m ρ c) (Proc.devRef .tc main_v77) = _
  have h := layer3 m ρ c
  generalize W12 m ρ c = V at h ⊢
  dsimp only [hostOps3]
  after_results
  rw [h]
  exact muHead _ _ _ _ _

open Cert.ReferenceIdeal.ReadP in
/-- The second result: the right half of the third layer is the reference's log-variance. -/
theorem logVar_eq (c : Dev nD) :
    W13 m ρ c (Proc.devRef .tc main_v78) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  show StableHlo.after hostOps3 (W12 m ρ c) (Proc.devRef .tc main_v78) = _
  have h := layer3 m ρ c
  generalize W12 m ρ c = V at h ⊢
  dsimp only [hostOps3]
  after_results
  rw [h]
  exact logVarHead _ _ _ _ _

end Cert.GraphEncoder

end
-- ==== Proof.lean ====
/-
  A two-layer graph convolution encoder with two linear heads, 50000 nodes and 800000 edges: the kernel's program
  against its plain reference, equal over the extended reals.

  Both programs normalise the graph the same way (self loops added, each edge weighted by the inverse square roots of
  its end nodes' degrees) and both apply, twice, "multiply by a weight matrix, gather at the sources, scale, sum at the
  targets, add the bias, take the positive part"; both end with two linear heads. They differ only in how the three
  matrix products are taken. The reference takes them as plain products. The kernel's program takes each in a dense
  layer that runs over the rows in ten blocks of 5000, on operands whose float format has been changed, and adds a bias
  inside the layer: a zero bias in the first two layers (the real bias is added after the aggregation, as in the
  reference), and in the third layer the two heads' biases end to end against the two heads' weights side by side.

  Over the extended reals a change of format is the identity and adding zero changes nothing, so the first two layers
  give the plain products; and column c of the fused third layer is z against column c of mu_W plus mu_b(c) for
  c < 128, and z against column c - 128 of lv_W plus lv_b(c - 128) otherwise, so its two halves are the two heads.
  Everything between the layers is the same operations in the same order in both programs. No step uses that the
  inputs are finite: sums are only regrouped, never distributed over.

  The frames: the kernel's two programs by their generated frame certificates; the reference by its run. The
  idealisation rewrote nothing, so there is nothing to preserve.
-/
import proofs.«105779_j87333864997319_1_alg».proof.Defs
import proofs.«105779_j87333864997319_1_alg».proof.Proof.Gen.Kernel
import proofs.«105779_j87333864997319_1_alg».proof.Proof.Gen.Kernel.Skeleton
import proofs.«105779_j87333864997319_1_alg».proof.Proof.Gen.Kernel.Launch
import proofs.«105779_j87333864997319_1_alg».proof.Proof.Gen.Kernel.Points
import proofs.«105779_j87333864997319_1_alg».proof.Proof.Gen.Kernel.Frame
import proofs.«105779_j87333864997319_1_alg».proof.Proof.Gen.KernelIdeal
import proofs.«105779_j87333864997319_1_alg».proof.Proof.Gen.KernelIdeal.Skeleton
import proofs.«105779_j87333864997319_1_alg».proof.Proof.Gen.KernelIdeal.Launch
import proofs.«105779_j87333864997319_1_alg».proof.Proof.Gen.KernelIdeal.Points
import proofs.«105779_j87333864997319_1_alg».proof.Proof.Gen.KernelIdeal.Frame
import proofs.«105779_j87333864997319_1_alg».proof.Proof.Gen.ReferenceIdeal
import proofs.«105779_j87333864997319_1_alg».proof.Proof.Gen.Pre_finite_inputs
import proofs.«105779_j87333864997319_1_alg».proof.Proof.KernelRun
import proofs.«105779_j87333864997319_1_alg».proof.Proof.RefRun
import proofs.«105779_j87333864997319_1_alg».proof.Proof.RefRead
import proofs.«105779_j87333864997319_1_alg».proof.Proof.Layers
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- The idealised program runs and keeps its arguments. -/
theorem frame_kernelIdeal : Cert.frame_KernelIdeal := fun m ρ _ => Cert.KernelIdeal.Gen.frame m ρ

/-- The reference runs and keeps its arguments: its run, the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The kernel's program ends with its two results at the reference's two stages of its own arguments. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v77) = Cert.ReferenceIdeal.ReadP.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_v78) = Cert.ReferenceIdeal.ReadP.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono
    (fun _ h c => ⟨(h c).1.trans (Cert.GraphEncoder.mu_eq m ρ c), (h c).2.1.trans (Cert.GraphEncoder.logVar_eq m ρ c), (h c).2.2⟩)
    (Cert.KernelIdeal.GenRun.run_results (F := Ideal) m ρ)

/-- From memories that agree on the arguments both programs end with the same two results. -/
theorem algebraic : Cert.algebraic_KernelIdeal_ReferenceIdeal := by
  intro m ρ m' ρ' _ hagree
  refine ⟨_, _, kernel_value m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨a0, a1, a2, a3, a4, a5, a6, a7, -, -⟩ := hagree c
    rw [Cert.ReferenceIdeal.ReadP.val_main_v69_eq, a0, a1, a2, a3, a4, a5, a6, a7]
  · obtain ⟨a0, a1, a2, a3, a4, a5, -, -, a8, a9⟩ := hagree c
    rw [Cert.ReferenceIdeal.ReadP.val_main_v73_eq, a0, a1, a2, a3, a4, a5, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
